-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S_ : Shape := ⟨0, ![]⟩
abbrev S1x8192 : Shape := ⟨2, ![1, 8192]⟩
abbrev S512x512 : Shape := ⟨2, ![512, 512]⟩
abbrev S512x1 : Shape := ⟨2, ![512, 1]⟩
abbrev S1x512 : Shape := ⟨2, ![1, 512]⟩

abbrev nBuf : Space → Nat
  | .hbm => 17
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S8192x1, .f32⟩
  | .hbm, ⟨3, _⟩ => ⟨S_, .f32⟩
  | .hbm, ⟨4, _⟩ => ⟨S8192x1, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S_, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v4 : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bcast_S_S8192x1 : S_.BroadcastsInDim S8192x1 (![] : Fin 0 → Fin S8192x1.rank)
  shapeCasts_S8192x1_S1x8192 : S8192x1.ShapeCasts S1x8192
  iota_S512x512_d0_w32 : S512x512.Iotas .tc 32 [0]
  iota_S512x512_d1_w32 : S512x512.Iotas .tc 32 [1]
  natLt_1_32 : 1 < 32
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x8192.size a
  hwx1_3 : ∀ i : grid1.Coords, EltTy.bits .f32 = 32 ∨ (Rect.block (s := S8192x8192) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x8192.size a
  hwx1_4 : ∀ i : grid1.Coords, EltTy.bits .f32 = 32 ∨ (Rect.block (s := S8192x8192) S512x512.size (cc1_transform_4 i) (hinb1_4 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S512x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)

variable [Facts₀]

class Facts : Prop extends Facts₀ where

variable [Facts]
-- ==== Proof.FilterSpec.lean ====
/-
  What both programs compute, index by index, on the extended reals.

  For a square matrix A of side 8192: the row sums r p = ∑ k, A (p, k); the scale d p = scale (r p), where
  scale r is the quotient 1 / √r with an infinite quotient replaced by 0; the scaled matrix
  lowPass A (p, q) = (d p · A (p, q)) · d q; and highPass A (p, q) = 2 · δ(p, q) − lowPass A (p, q) with δ the
  identity matrix. The reference spells the first as δ − (δ − x) and the second as δ + (δ − x); on the extended
  reals both rewritings hold for EVERY x, infinite ones included, because δ is 0 or 1 (sub_sub_unit,
  add_sub_unit): no finiteness of the input is used.
-/
import Idealize.ShloMosaic.PureOps.Ideal
import Idealize.ShloMosaic.PureOps.Ideal.Laws
import Idealize.ShloMosaic.Lib.ValueIdx

noncomputable section

open scoped BigOperators

namespace Cert.Filter

open Idealize.ShloMosaic Idealize.ShloMosaic.ValueIdx

/-- The index set of the square matrices. -/
abbrev MatIdx : Type := (⟨2, ![8192, 8192]⟩ : Shape).Idx

/-! ## The constants -/

/-- The pattern of 2.0 denotes the real 2. -/
theorem ofBits_two : Ideal.ofBits .f32 0x40000000#32 = ((2 : ℝ) : EReal) := by
  simp [Ideal.ofBits, Ideal.ieee, -EReal.coe_mul]; norm_num

/-! ## The scale -/

/-- 1 / √r, replaced by 0 where the quotient's absolute value is +∞ — spelt with the very operations the two
    programs apply to a row sum, so that either program's chain read at an index IS this term. -/
def scale (r : Ideal .f32) : Ideal .f32 :=
  Scalar.select
    (FloatOps.cmpf (F := Ideal) .oeq
      (FloatOps.hostAbsf (F := Ideal)
        (FloatOps.hostDivf (F := Ideal) (FloatOps.ofBits (F := Ideal) .f32 0x3F800000#32) (FloatOps.hostUnary (F := Ideal) .sqrt r)))
      (FloatOps.ofBits (F := Ideal) .f32 0x7F800000#32))
    (FloatOps.ofBits (F := Ideal) .f32 0x00000000#32)
    (FloatOps.hostDivf (F := Ideal) (FloatOps.ofBits (F := Ideal) .f32 0x3F800000#32) (FloatOps.hostUnary (F := Ideal) .sqrt r))

/-! ## The matrices -/

/-- Row p's sum. -/
def rowSum (A : MatIdx → EReal) (p : Fin 8192) : EReal := ∑ k : Fin 8192, A (ix2 p k)

/-- Row p's scale. -/
def rowScale (A : MatIdx → EReal) (p : Fin 8192) : EReal := scale (rowSum A p)

/-- The identity matrix. -/
def unit (i : MatIdx) : EReal := if (i 0).val = (i 1).val then 1 else 0

/-- D · A · D by rows and columns. -/
def lowPass (A : MatIdx → EReal) : MatIdx → EReal :=
  fun i => rowScale A (i 0) * A i * rowScale A (i 1)

/-- 2 · I − D · A · D. -/
def highPass (A : MatIdx → EReal) : MatIdx → EReal :=
  fun i => ((2 : ℝ) : EReal) * unit i - lowPass A i

/-! ## The two rewritings of the reference -/

theorem unit_cases (i : MatIdx) : unit i = ((0 : ℝ) : EReal) ∨ unit i = ((1 : ℝ) : EReal) := by
  unfold unit; split
  · right; simp
  · left; simp

/-- e − (e − x) = x for a real e and every extended real x. -/
theorem sub_sub_real (e : ℝ) (x : EReal) : (e : EReal) - ((e : EReal) - x) = x := by
  induction x using EReal.rec with
  | bot => simp
  | top => simp
  | coe r => rw [← EReal.coe_sub, ← EReal.coe_sub]; congr 1; ring

/-- e + (e − x) = 2 · e − x for a real e and every extended real x. -/
theorem add_sub_real (e : ℝ) (x : EReal) : (e : EReal) + ((e : EReal) - x) = ((2 : ℝ) : EReal) * (e : EReal) - x := by
  induction x using EReal.rec with
  | bot => rw [← EReal.coe_mul]; simp [-EReal.coe_mul]
  | top => rw [← EReal.coe_mul]; simp [-EReal.coe_mul]
  | coe r => rw [← EReal.coe_mul, ← EReal.coe_sub, ← EReal.coe_sub, ← EReal.coe_add]; congr 1; ring

theorem sub_sub_unit (i : MatIdx) (x : EReal) : unit i - (unit i - x) = x := by
  rcases unit_cases i with h | h <;> rw [h] <;> exact sub_sub_real _ x

theorem add_sub_unit (i : MatIdx) (x : EReal) : unit i + (unit i - x) = ((2 : ℝ) : EReal) * unit i - x := by
  rcases unit_cases i with h | h <;> rw [h] <;> exact add_sub_real _ x

end Cert.Filter

end
-- ==== Proof.LibColumn.lean ====
/-
  Column vectors read at an index given by coordinates: the three layout operations a sum that keeps its reduced axis
  as a unit axis meets. A vector of length a cast to a column [a, 1]; a column [a, 1] recast as a row [1, a]; a column
  [a, 1] broadcast over the b columns of [a, b]. Each reads, at an index written by its coordinates, the operand at the
  row coordinate; the unit coordinate is 0. (The companions for a LEADING unit axis and for a row broadcast are the
  library's shapeCast_a_1a_apply, shapeCast_1a_a_apply and broadcastTo_1b_ab_apply.)
-/
import Idealize.ShloMosaic.Lib.Pipeline.Value
import Idealize.ShloMosaic.Lib.ValueIdx

namespace Cert.LibColumn

open Idealize.ShloMosaic Idealize.ShloMosaic.ValueIdx

variable {α : Type}

/-- A vector of length a cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the vector of length a reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] recast as the row [1, a] reads, at (u, i), the operand at (i, 0). -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column [a, 1] broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowSumValue.lean ====
/-
  The first kernel region's result array: the column of row sums.

  The region walks the 32 strips of 256 rows. At strip t its body loads the strip, 256 full rows of the matrix, and stores
  for each of them the sum of its 8192 entries into block t of the column. Block t of the column is rows 256 t … 256 t + 255,
  and the strips tile the column, so after the region the column holds at row r the sum of row r of the matrix as the
  region found it.
-/
import proofs.«113282_j73315091742991_1_alg».proof.Proof.KernelIdealFrame
import proofs.«113282_j73315091742991_1_alg».proof.Proof.FilterSpec
import proofs.«113282_j73315091742991_1_alg».proof.Proof.LibColumn
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RowSums

open Cert.KernelIdeal Cert.KernelIdeal.Gen Cert.KernelIdeal.GenP Cert.Filter

variable (V : (c : Dev nD) → (b : Ref sig .tc) → Buf (Elt Ideal) ((c : Thread nD τ).loc b))

theorem hz : (![0, 0] : Fin 2 → Nat) = fun _ => 0 := funext fun a => by fin_cases a <;> rfl

/-- The column of a matrix's row sums. -/
def sums (A : S8192x8192.Idx → EReal) : S8192x1.Idx → EReal := fun i => rowSum A ⟨(i 0).val, idx2_lt0 i⟩

/-- The body's stored value at row p of the strip: the sum of the strip's row p. -/
theorem pay_apply (x0 : FVec Ideal S256x8192 .f32) (p : Fin 256) (u : Fin 1) :
    k0_pay1 (F := Ideal) x0 (ix2 p u) = ∑ k : Fin 8192, x0 (ix2 p k) := by
  unfold k0_pay1
  refine (LibColumn.shapeCast_a_a1_apply _ _ p u).trans ?_
  refine (Ideal.multiReduction_add_single x0 _ _ _ _ (ix1 p)).trans ?_
  refine Finset.sum_congr rfl fun k _ => congrArg x0 ?_
  funext a
  match a with
  | ⟨0, _⟩ => rfl
  | ⟨1, _⟩ => rfl

/-- The two windows' block indices at strip t: the strip's number down the rows, 0 across. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What strip t writes back is block t of the column of row sums of the matrix as the region finds it. -/
theorem flushed_eq (c : Dev nD) (t : Fin cfg0.N) :
    (dat0 V c).flushed 1 t = ((cfg0.win 1).blk t).view.read (Elt Ideal) (sums (V c main_arg0)) := by
  show (cfg0.win 1).cut (grid0.coords t) ((dat0 V c).after 1 t) = _
  rw [after0_1]
  unfold out0_1
  rw [View.canon_unit_zero hz]
  simp only [View.ld_unit_zero (S := S256x8192) hz]
  obtain ⟨e0, e1, e2, e3⟩ := idx_facts t
  funext j
  have hj0 : (j 0).val < 256 := (j 0).isLt
  have hj1 : (j 1).val < 1 := (j 1).isLt
  have hx : (win0 1).xinj (grid0.coords t) j = ix2 (⟨(j 0).val, hj0⟩ : Fin 256) (⟨(j 1).val, hj1⟩ : Fin 1) := by
    funext a
    match a with
    | ⟨0, _⟩ => rfl
    | ⟨1, _⟩ => rfl
  show k0_pay1 (F := Ideal) (iblk0 V c 0 t) ((win0 1).xinj (grid0.coords t) j)
      = sums (V c main_arg0) (((cfg0.win 1).blk t).view.emb j)
  rw [hx]
  refine (pay_apply _ _ _).trans ?_
  unfold sums rowSum
  refine Finset.sum_congr rfl fun k _ => ?_
  show V c main_arg0 (((cfg0.win 0).blk t).view.emb (ix2 (⟨(j 0).val, hj0⟩ : Fin 256) k)) = V c main_arg0 _
  refine congrArg (V c main_arg0) ?_
  funext a
  apply Fin.ext
  match a with
  | ⟨0, _⟩ =>
    show win0_0.index t (0 : Fin 2) * 256 + 1 * (j 0).val = win0_1.index t (0 : Fin 2) * 256 + 1 * (j 0).val
    omega
  | ⟨1, _⟩ =>
    show win0_0.index t (1 : Fin 2) * 8192 + 1 * k.val = k.val
    omega

/-- A row of the column lies in strip t's block exactly when it is one of rows 256 t … 256 t + 255. -/
theorem mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- The strip that holds row r is strip r / 256. -/
theorem idx_onto : ∀ q : Fin 32, ∃ t : Fin cfg0.N, win0_1.index t = ![q.val, 0] :=
  (by decide +kernel : ∀ q : Fin 32, ∃ t : Fin grid0.N, win0_1.index t = ![q.val, 0])

/-- The strips' blocks tile the column. -/
theorem cover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 1 ≤ (i 1).val ∧ (i 1).val < win0_1.index t (1 : Fin 2) * 1 + 1
    omega

/-- THE COLUMN after the region: the row sums of the matrix as the region found it. -/
theorem final (c : Dev nD) : (dat0 V c).arrAt 1 cfg0.N = sums (V c main_arg0) :=
  (dat0 V c).arrAt_eq_of_cover 1 (sums (V c main_arg0)) (fun t _ => flushed_eq V c t) cover

end Cert.KernelIdeal.RowSums

end
-- ==== Proof.ScaledPayload.lean ====
/-
  The second kernel's two stored values, read at one entry of a 512 × 512 block.

  At block (gi, gj) the body holds the matrix block a, the rows' scales as a column r and the columns' scales as a row s.
  It stores (r p · a (p, q)) · s q, and 2 · e (p, q) minus that, where e is 1 exactly where local row p and local column q
  lie on the global diagonal: the body tests (p − q) + (gi − gj) · 512 = 0 on 32-bit words, and with p, q below 512 and
  gi, gj below 16 no wrap-around can make the word zero off the diagonal, so the test is gi · 512 + p = gj · 512 + q.
-/
import proofs.«113282_j73315091742991_1_alg».proof.Proof.Gen.KernelIdeal.Skeleton
import proofs.«113282_j73315091742991_1_alg».proof.Proof.FilterSpec
import proofs.«113282_j73315091742991_1_alg».proof.Proof.LibColumn
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.Scaled

open Cert.KernelIdeal Cert.KernelIdeal.Gen Cert.Filter

/-- The body's diagonal test on 32-bit words is the test on the global row and column numbers. -/
theorem diag_word (gi gj a b : Nat) (hgi : gi < 16) (hgj : gj < 16) (ha : a < 512) (hb : b < 512) :
    ((BitVec.ofNat 32 a - BitVec.ofNat 32 b) + (BitVec.ofNat 32 gi - BitVec.ofNat 32 gj) * 512#32 = 0#32)
      ↔ gi * 512 + a = gj * 512 + b := by
  constructor <;> intro h <;> bv_omega

/-- The tested bit, widened and converted, is the identity matrix's entry. -/
theorem eye_word (gi gj a b : Nat) (hgi : gi < 16) (hgj : gj < 16) (ha : a < 512) (hb : b < 512) :
    FloatOps.sitofp (F := Ideal) .f32 ((IntOp.cmpi .eq (IntOp.addi (IntOp.subi (BitVec.ofNat 32 a) (BitVec.ofNat 32 b))
        (Scalar.muli (Scalar.subi (BitVec.ofNat 32 gi) (BitVec.ofNat 32 gj)) 512#32)) 0#32).setWidth 32)
      = if gi * 512 + a = gj * 512 + b then (1 : EReal) else 0 := by
  have hw := diag_word gi gj a b hgi hgj ha hb
  show ((((BitVec.ofBool ((BitVec.ofNat 32 a - BitVec.ofNat 32 b) + (BitVec.ofNat 32 gi - BitVec.ofNat 32 gj) * 512#32 == 0#32)).setWidth 32).toInt : ℝ) : EReal) = _
  by_cases h : gi * 512 + a = gj * 512 + b
  · have hb' : ((BitVec.ofNat 32 a - BitVec.ofNat 32 b) + (BitVec.ofNat 32 gi - BitVec.ofNat 32 gj) * 512#32 == 0#32) = true :=
      beq_iff_eq.mpr (hw.mpr h)
    rw [if_pos h, hb']
    show (((1 : ℤ) : ℝ) : EReal) = 1
    simp
  · have hb' : ((BitVec.ofNat 32 a - BitVec.ofNat 32 b) + (BitVec.ofNat 32 gi - BitVec.ofNat 32 gj) * 512#32 == 0#32) = false :=
      beq_eq_false_iff_ne.mpr fun e => h (hw.mp e)
    rw [if_neg h, hb']
    show (((0 : ℤ) : ℝ) : EReal) = 0
    simp

/-- The first stored value at (p, q): the row's scale times the entry times the column's scale. -/
theorem pay1_apply (x0 : FVec Ideal S512x512 .f32) (x1 : FVec Ideal S512x1 .f32) (x2 : FVec Ideal S1x512 .f32) (p q : Fin 512) :
    k1_pay1 (F := Ideal) x0 x1 x2 (ix2 p q) = x1 (ix2 p (0 : Fin 1)) * x0 (ix2 p q) * x2 (ix2 (0 : Fin 1) q) := by
  unfold k1_pay1
  have h1 : broadcastTo S512x512 (shapeCast S512x1 x1 shapeCasts_S512x1_S512x1) broadcasts_S512x1_S512x512 (ix2 p q)
      = x1 (ix2 p (0 : Fin 1)) := by
    refine (LibColumn.broadcastTo_a1_ab_apply _ _ p q).trans ?_
    rw [shapeCast_self]
  have h2 : broadcastTo S512x512 (shapeCast S1x512 x2 shapeCasts_S1x512_S1x512) broadcasts_S1x512_S512x512 (ix2 p q)
      = x2 (ix2 (0 : Fin 1) q) := by
    refine (broadcastTo_1b_ab_apply _ _ p q).trans ?_
    rw [shapeCast_self]
  show broadcastTo S512x512 (shapeCast S512x1 x1 shapeCasts_S512x1_S512x1) broadcasts_S512x1_S512x512 (ix2 p q) * x0 (ix2 p q)
      * broadcastTo S512x512 (shapeCast S1x512 x2 shapeCasts_S1x512_S1x512) broadcasts_S1x512_S512x512 (ix2 p q) = _
  rw [h1, h2]

/-- The second stored value at (p, q) of block (gi, gj): twice the identity's entry there, minus the first. -/
theorem pay2_apply (i : grid1.Coords) (x0 : FVec Ideal S512x512 .f32) (x1 : FVec Ideal S512x1 .f32) (x2 : FVec Ideal S1x512 .f32)
    (p q : Fin 512) :
    k1_pay2 (F := Ideal) i x0 x1 x2 (ix2 p q)
      = ((2 : ℝ) : EReal) * (if (i 0).val * 512 + p.val = (i 1).val * 512 + q.val then (1 : EReal) else 0)
        - x1 (ix2 p (0 : Fin 1)) * x0 (ix2 p q) * x2 (ix2 (0 : Fin 1) q) := by
  unfold k1_pay2
  show (Ideal.ofBits .f32 0x40000000#32 : EReal)
        * FloatOps.sitofp (F := Ideal) .f32 ((IntOp.cmpi .eq (IntOp.addi
            (IntOp.subi (iota .tc S512x512 32 [0] iota_S512x512_d0_w32 (ix2 p q)) (iota .tc S512x512 32 [1] iota_S512x512_d1_w32 (ix2 p q)))
            (Scalar.muli (Scalar.subi (BitVec.ofNat 32 (i 0).val) (BitVec.ofNat 32 (i 1).val)) 512#32)) 0#32).setWidth 32)
      - k1_pay1 (F := Ideal) x0 x1 x2 (ix2 p q) = _
  rw [iota_single_apply, iota_single_apply, pay1_apply, ofBits_two]
  rw [eye_word (i 0).val (i 1).val p.val q.val (i 0).isLt (i 1).isLt p.isLt q.isLt]

end Cert.KernelIdeal.Scaled

end
-- ==== Proof.ScaledValue.lean ====
/-
  The second kernel region's two result arrays.

  The region walks the 16 × 16 blocks of 512 × 512 entries. At block (gi, gj) its body holds the matrix block, rows
  512 gi … of the scales column and columns 512 gj … of the scales row, and stores for each entry (p, q) of the block
  the scaled entry and twice the identity's entry minus the scaled entry. The blocks tile both result arrays, so after
  the region they hold at (r, s) the value r's scale · entry · s's scale, and 2 · δ(r, s) minus it, of the three arrays
  as the region found them.
-/
import proofs.«113282_j73315091742991_1_alg».proof.Proof.KernelIdealFrame
import proofs.«113282_j73315091742991_1_alg».proof.Proof.ScaledPayload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scaled

open Cert.KernelIdeal Cert.KernelIdeal.Gen Cert.KernelIdeal.GenP Cert.Filter

variable (V : (c : Dev nD) → (b : Ref sig .tc) → Buf (Elt Ideal) ((c : Thread nD τ).loc b))

theorem hz : (![0, 0] : Fin 2 → Nat) = fun _ => 0 := funext fun a => by fin_cases a <;> rfl

/-- The matrix scaled by a column on the rows and by a row on the columns. -/
def low (A : S8192x8192.Idx → EReal) (r : S8192x1.Idx → EReal) (s : S1x8192.Idx → EReal) : S8192x8192.Idx → EReal :=
  fun i => r (ix2 (⟨(i 0).val, idx2_lt0 i⟩ : Fin 8192) (0 : Fin 1)) * A i * s (ix2 (0 : Fin 1) (⟨(i 1).val, idx2_lt1 i⟩ : Fin 8192))

/-- Twice the identity minus that. -/
def high (A : S8192x8192.Idx → EReal) (r : S8192x1.Idx → EReal) (s : S1x8192.Idx → EReal) : S8192x8192.Idx → EReal :=
  fun i => ((2 : ℝ) : EReal) * unit i - low A r s i

/-- The five windows' block indices at a grid point: the matrix block and both result blocks at (gi, gj), the scales
    column's at (gi, 0), the scales row's at (0, gj), with gi, gj the point's coordinates. -/
theorem idx_facts : ∀ t : Fin cfg1.N,
    win1_0.index t (0 : Fin 2) = (grid1.coords t 0).val ∧ win1_0.index t (1 : Fin 2) = (grid1.coords t 1).val
    ∧ win1_1.index t (0 : Fin 2) = (grid1.coords t 0).val ∧ win1_1.index t (1 : Fin 2) = 0
    ∧ win1_2.index t (0 : Fin 2) = 0 ∧ win1_2.index t (1 : Fin 2) = (grid1.coords t 1).val
    ∧ win1_3.index t (0 : Fin 2) = (grid1.coords t 0).val ∧ win1_3.index t (1 : Fin 2) = (grid1.coords t 1).val
    ∧ win1_4.index t (0 : Fin 2) = (grid1.coords t 0).val ∧ win1_4.index t (1 : Fin 2) = (grid1.coords t 1).val :=
  (by decide +kernel : ∀ t : Fin grid1.N, _)

/-- The matrix block's entry (p, q) at point t is the matrix at the global row and column. -/
theorem read0 (c : Dev nD) (t : Fin cfg1.N) (p q : Fin 512) (i : S8192x8192.Idx)
    (hi0 : (i 0).val = (grid1.coords t 0).val * 512 + p.val) (hi1 : (i 1).val = (grid1.coords t 1).val * 512 + q.val) :
    iblk1 V c 0 t (ix2 p q) = V c main_arg0 i := by
  obtain ⟨e00, e01, e10, e11, e20, e21, e30, e31, e40, e41⟩ := idx_facts t
  show V c main_arg0 (((cfg1.win 0).blk t).view.emb (ix2 p q)) = _
  refine congrArg (V c main_arg0) ?_
  funext a
  apply Fin.ext
  match a with
  | ⟨0, _⟩ =>
    show win1_0.index t (0 : Fin 2) * 512 + 1 * p.val = (i 0).val
    omega
  | ⟨1, _⟩ =>
    show win1_0.index t (1 : Fin 2) * 512 + 1 * q.val = (i 1).val
    omega

/-- The scales column's block at point t, row p, is the column at the global row. -/
theorem read1 (c : Dev nD) (t : Fin cfg1.N) (p : Fin 512) (i : S8192x8192.Idx)
    (hi0 : (i 0).val = (grid1.coords t 0).val * 512 + p.val) :
    iblk1 V c 1 t (ix2 p (0 : Fin 1)) = V c main_v5 (ix2 (⟨(i 0).val, idx2_lt0 i⟩ : Fin 8192) (0 : Fin 1)) := by
  obtain ⟨e00, e01, e10, e11, e20, e21, e30, e31, e40, e41⟩ := idx_facts t
  show V c main_v5 (((cfg1.win 1).blk t).view.emb (ix2 p (0 : Fin 1))) = _
  refine congrArg (V c main_v5) ?_
  funext a
  apply Fin.ext
  match a with
  | ⟨0, _⟩ =>
    show win1_1.index t (0 : Fin 2) * 512 + 1 * p.val = (i 0).val
    omega
  | ⟨1, _⟩ =>
    show win1_1.index t (1 : Fin 2) * 1 + 1 * 0 = 0
    omega

/-- The scales row's block at point t, column q, is the row at the global column. -/
theorem read2 (c : Dev nD) (t : Fin cfg1.N) (q : Fin 512) (i : S8192x8192.Idx)
    (hi1 : (i 1).val = (grid1.coords t 1).val * 512 + q.val) :
    iblk1 V c 2 t (ix2 (0 : Fin 1) q) = V c main_v6 (ix2 (0 : Fin 1) (⟨(i 1).val, idx2_lt1 i⟩ : Fin 8192)) := by
  obtain ⟨e00, e01, e10, e11, e20, e21, e30, e31, e40, e41⟩ := idx_facts t
  show V c main_v6 (((cfg1.win 2).blk t).view.emb (ix2 (0 : Fin 1) q)) = _
  refine congrArg (V c main_v6) ?_
  funext a
  apply Fin.ext
  match a with
  | ⟨0, _⟩ =>
    show win1_2.index t (0 : Fin 2) * 1 + 1 * 0 = 0
    omega
  | ⟨1, _⟩ =>
    show win1_2.index t (1 : Fin 2) * 512 + 1 * q.val = (i 1).val
    omega

/-- What block t writes back to the first result is block t of the scaled matrix. -/
theorem flushed3_eq (c : Dev nD) (t : Fin cfg1.N) :
    (dat1 V c).flushed 3 t
      = ((cfg1.win 3).blk t).view.read (Elt Ideal) (low (V c main_arg0) (V c main_v5) (V c main_v6)) := by
  show (cfg1.win 3).cut (grid1.coords t) ((dat1 V c).after 3 t) = _
  rw [after1_3]
  unfold out1_3
  rw [View.canon_unit_zero hz]
  simp only [View.ld_unit_zero (S := S512x512) hz, View.ld_unit_zero (S := S512x1) hz, View.ld_unit_zero (S := S1x512) hz]
  obtain ⟨e00, e01, e10, e11, e20, e21, e30, e31, e40, e41⟩ := idx_facts t
  funext j
  have hj0 : (j 0).val < 512 := (j 0).isLt
  have hj1 : (j 1).val < 512 := (j 1).isLt
  have hx : (win1 3).xinj (grid1.coords t) j = ix2 (⟨(j 0).val, hj0⟩ : Fin 512) (⟨(j 1).val, hj1⟩ : Fin 512) := by
    funext a
    match a with
    | ⟨0, _⟩ => rfl
    | ⟨1, _⟩ => rfl
  have hi0 : ((((cfg1.win 3).blk t).view.emb j) 0).val = (grid1.coords t 0).val * 512 + (j 0).val := by
    show win1_3.index t (0 : Fin 2) * 512 + 1 * (j 0).val = _
    omega
  have hi1 : ((((cfg1.win 3).blk t).view.emb j) 1).val = (grid1.coords t 1).val * 512 + (j 1).val := by
    show win1_3.index t (1 : Fin 2) * 512 + 1 * (j 1).val = _
    omega
  show k1_pay1 (F := Ideal) (iblk1 V c 0 t) (iblk1 V c 1 t) (iblk1 V c 2 t) ((win1 3).xinj (grid1.coords t) j)
      = low (V c main_arg0) (V c main_v5) (V c main_v6) (((cfg1.win 3).blk t).view.emb j)
  rw [hx]
  refine (pay1_apply _ _ _ _ _).trans ?_
  unfold low
  rw [read1 V c t ⟨(j 0).val, hj0⟩ _ hi0, read0 V c t ⟨(j 0).val, hj0⟩ ⟨(j 1).val, hj1⟩ _ hi0 hi1,
    read2 V c t ⟨(j 1).val, hj1⟩ _ hi1]

/-- What block t writes back to the second result is block t of twice the identity minus the scaled matrix. -/
theorem flushed4_eq (c : Dev nD) (t : Fin cfg1.N) :
    (dat1 V c).flushed 4 t
      = ((cfg1.win 4).blk t).view.read (Elt Ideal) (high (V c main_arg0) (V c main_v5) (V c main_v6)) := by
  show (cfg1.win 4).cut (grid1.coords t) ((dat1 V c).after 4 t) = _
  rw [after1_4]
  unfold out1_4
  rw [View.canon_unit_zero hz]
  simp only [View.ld_unit_zero (S := S512x512) hz, View.ld_unit_zero (S := S512x1) hz, View.ld_unit_zero (S := S1x512) hz]
  obtain ⟨e00, e01, e10, e11, e20, e21, e30, e31, e40, e41⟩ := idx_facts t
  funext j
  have hj0 : (j 0).val < 512 := (j 0).isLt
  have hj1 : (j 1).val < 512 := (j 1).isLt
  have hx : (win1 4).xinj (grid1.coords t) j = ix2 (⟨(j 0).val, hj0⟩ : Fin 512) (⟨(j 1).val, hj1⟩ : Fin 512) := by
    funext a
    match a with
    | ⟨0, _⟩ => rfl
    | ⟨1, _⟩ => rfl
  have hi0 : ((((cfg1.win 4).blk t).view.emb j) 0).val = (grid1.coords t 0).val * 512 + (j 0).val := by
    show win1_4.index t (0 : Fin 2) * 512 + 1 * (j 0).val = _
    omega
  have hi1 : ((((cfg1.win 4).blk t).view.emb j) 1).val = (grid1.coords t 1).val * 512 + (j 1).val := by
    show win1_4.index t (1 : Fin 2) * 512 + 1 * (j 1).val = _
    omega
  show k1_pay2 (F := Ideal) (grid1.coords t) (iblk1 V c 0 t) (iblk1 V c 1 t) (iblk1 V c 2 t) ((win1 4).xinj (grid1.coords t) j)
      = high (V c main_arg0) (V c main_v5) (V c main_v6) (((cfg1.win 4).blk t).view.emb j)
  rw [hx]
  refine (pay2_apply _ _ _ _ _ _).trans ?_
  unfold high low
  rw [read1 V c t ⟨(j 0).val, hj0⟩ _ hi0, read0 V c t ⟨(j 0).val, hj0⟩ ⟨(j 1).val, hj1⟩ _ hi0 hi1,
    read2 V c t ⟨(j 1).val, hj1⟩ _ hi1]
  have hu : (if (grid1.coords t 0).val * 512 + (j 0).val = (grid1.coords t 1).val * 512 + (j 1).val then (1 : EReal) else 0)
      = unit (((cfg1.win 4).blk t).view.emb j) := by
    unfold unit
    exact if_congr (by rw [hi0, hi1]) rfl rfl
  rw [← hu]

/-- An entry lies in point t's block of a result exactly when each coordinate is in the block's range. -/
theorem mem_blk3 (t : Fin cfg1.N) (i : S8192x8192.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v7_0).slice (win1_3.rect t)).set ↔ _
  rw [View.set_slice_whole, Rect.mem_set_unit]
  exact Iff.rfl
theorem mem_blk4 (t : Fin cfg1.N) (i : S8192x8192.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v7_1).slice (win1_4.rect t)).set ↔ _
  rw [View.set_slice_whole, Rect.mem_set_unit]
  exact Iff.rfl

/-- Every block of the 16 × 16 tiling is some point's, for both results. -/
theorem idx_onto : ∀ (q0 q1 : Fin 16), ∃ t : Fin cfg1.N, win1_3.index t = ![q0.val, q1.val] ∧ win1_4.index t = ![q0.val, q1.val] :=
  (by decide +kernel : ∀ (q0 q1 : Fin 16), ∃ t : Fin grid1.N, win1_3.index t = ![q0.val, q1.val] ∧ win1_4.index t = ![q0.val, q1.val])

/-- The blocks tile the first result. -/
theorem cover3 (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht, -⟩ := idx_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk3]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 512 ≤ (i 1).val ∧ (i 1).val < win1_3.index t (1 : Fin 2) * 512 + 512
    omega

/-- The blocks tile the second result. -/
theorem cover4 (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  obtain ⟨t, -, ht⟩ := idx_onto ⟨(i 0).val / 512, by omega⟩ ⟨(i 1).val / 512, by omega⟩
  have q0 : win1_4.index t (0 : Fin 2) = (i 0).val / 512 := congrFun ht 0
  have q1 : win1_4.index t (1 : Fin 2) = (i 1).val / 512 := congrFun ht 1
  refine ⟨t, flush1_4 t, ?_⟩
  rw [mem_blk4]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 512 ≤ (i 1).val ∧ (i 1).val < win1_4.index t (1 : Fin 2) * 512 + 512
    omega

/-- THE FIRST RESULT after the region: the scaled matrix of the three arrays as the region found them. -/
theorem final3 (c : Dev nD) : (dat1 V c).arrAt 3 cfg1.N = low (V c main_arg0) (V c main_v5) (V c main_v6) :=
  (dat1 V c).arrAt_eq_of_cover 3 (low (V c main_arg0) (V c main_v5) (V c main_v6)) (fun t _ => flushed3_eq V c t) cover3

/-- THE SECOND RESULT after the region: twice the identity minus the scaled matrix. -/
theorem final4 (c : Dev nD) : (dat1 V c).arrAt 4 cfg1.N = high (V c main_arg0) (V c main_v5) (V c main_v6) :=
  (dat1 V c).arrAt_eq_of_cover 4 (high (V c main_arg0) (V c main_v5) (V c main_v6)) (fun t _ => flushed4_eq V c t) cover4

end Cert.KernelIdeal.Scaled

end
-- ==== Proof.BetweenValue.lean ====
/-
  Between the two kernel regions: the host turns the column of row sums into the column of scales and recasts it as a row.

  Entry by entry the host's chain on the column (square root, the quotient 1 / ·, the test for an infinite quotient, the
  select of 0) is the specification's scale of the row sum; the recast reads the column's row q at the row's column q;
  and no operation between the launch and the second region writes the argument array.
-/
import proofs.«113282_j73315091742991_1_alg».proof.Proof.KernelIdealFrame
import proofs.«113282_j73315091742991_1_alg».proof.Proof.FilterSpec
import proofs.«113282_j73315091742991_1_alg».proof.Proof.LibColumn
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Between

open Cert.KernelIdeal Cert.KernelIdeal.Gen Cert.KernelIdeal.GenP Cert.Filter

variable (m : (ℓ : Loc nD τ sig) → Buf (Elt Ideal) ℓ) (ρ : Dev nD → PrngReg)

/-- The argument array at the second region's entry is as launched. -/
theorem entry_arg (c : Dev nD) : V6 m ρ c main_arg0 = m ((c : Thread nD τ).loc main_arg0) :=
  ((W7_arr m ρ c 0).trans (((dat1 (V6 m ρ) c).arrAt_in 0 rfl _).trans (A_eq1 (V6 m ρ) c 0))).symm.trans (W7_main_arg0 m ρ c)

/-- The scales column at the second region's entry: entry by entry the scale of what the first region left in the sums column. -/
theorem scales_col (c : Dev nD) :
    (V6 m ρ c main_v5 : S8192x1.Idx → EReal) = fun i => scale ((W1 m ρ c (Proc.devRef .tc main_v0) : S8192x1.Idx → EReal) i) := by
  show StableHlo.after hostOps1_4 (StableHlo.after hostOps1_3 (StableHlo.after hostOps1_2 (StableHlo.after hostOps1_1
    (StableHlo.after hostOps1 (W1 m ρ c))))) (Proc.devRef .tc main_v5) = _
  dsimp only [hostOps1_4, hostOps1_3, hostOps1_2, hostOps1_1, hostOps1]
  after_results
  simp only [TRef.ofBuf, TRef.toBuf, cast_eq]
  rfl

/-- The scales row at the second region's entry: the scales column recast. -/
theorem scales_row (c : Dev nD) :
    (V6 m ρ c main_v6 : S1x8192.Idx → EReal) = shapeCast S1x8192 (V6 m ρ c main_v5 : S8192x1.Idx → EReal) shapeCasts_S8192x1_S1x8192 := by
  show StableHlo.after hostOps1_4 (W5 m ρ c) (Proc.devRef .tc main_v6)
    = shapeCast S1x8192 (StableHlo.after hostOps1_4 (W5 m ρ c) (Proc.devRef .tc main_v5) : S8192x1.Idx → EReal) shapeCasts_S8192x1_S1x8192
  generalize W5 m ρ c = Fv
  dsimp only [hostOps1_4]
  after_results
  rfl

end Cert.KernelIdeal.Between

end
-- ==== Proof.KernelIdealValue.lean ====
/-
  The idealized kernel's run, with both results as functions of the argument.

  The first region leaves the row sums in its column; the host turns them into scales, a column and a row; the second
  region scales the matrix by them. Put together: after the run the first result is lowPass of the argument array as
  launched and the second is highPass of it, and the argument array is unchanged.
-/
import proofs.«113282_j73315091742991_1_alg».proof.Proof.KernelIdealRun
import proofs.«113282_j73315091742991_1_alg».proof.Proof.RowSumValue
import proofs.«113282_j73315091742991_1_alg».proof.Proof.ScaledValue
import proofs.«113282_j73315091742991_1_alg».proof.Proof.BetweenValue

set_option maxRecDepth 16384

noncomputable section

open Idealize.ShloMosaic Idealize.ShloMosaic.TcCoe Idealize.SL.Sem Idealize.ShloMosaic.ValueIdx

namespace Cert.KernelIdeal.Results

open Cert.KernelIdeal Cert.KernelIdeal.Gen Cert.KernelIdeal.GenP Cert.Filter

variable (m : (ℓ : Loc nD τ sig) → Buf (Elt Ideal) ℓ) (ρ : Dev nD → PrngReg)

/-- The sums column after the first region: the row sums of the argument as launched. -/
theorem sums_col (c : Dev nD) :
    (W1 m ρ c (Proc.devRef .tc main_v0) : S8192x1.Idx → EReal) = RowSums.sums (m ((c : Thread nD τ).loc main_arg0)) :=
  (W1_arr m ρ c 1).trans (RowSums.final (V0 m ρ) c)

/-- The scales column at the second region's entry holds at row p the scale of row p of the argument. -/
theorem col_apply (c : Dev nD) (p : Fin 8192) :
    (V6 m ρ c main_v5 : S8192x1.Idx → EReal) (ix2 p (0 : Fin 1)) = rowScale (m ((c : Thread nD τ).loc main_arg0)) p := by
  rw [Between.scales_col m ρ c, sums_col m ρ c]
  rfl

/-- The scales row holds at column q the scale of row q of the argument. -/
theorem row_apply (c : Dev nD) (q : Fin 8192) :
    (V6 m ρ c main_v6 : S1x8192.Idx → EReal) (ix2 (0 : Fin 1) q) = rowScale (m ((c : Thread nD τ).loc main_arg0)) q := by
  rw [Between.scales_row m ρ c]
  refine (LibColumn.shapeCast_a1_1a_apply _ _ (0 : Fin 1) q).trans ?_
  exact col_apply m ρ c q

/-- The first result after the run. -/
theorem low_result (c : Dev nD) :
    W7 m ρ c (Proc.devRef .tc main_v7_0) = lowPass (m ((c : Thread nD τ).loc main_arg0)) := by
  refine (W7_arr m ρ c 3).trans ?_
  refine (Scaled.final3 (V6 m ρ) c).trans ?_
  funext i
  unfold Scaled.low lowPass
  rw [col_apply, row_apply, Between.entry_arg]
  rfl

/-- The second result after the run. -/
theorem high_result (c : Dev nD) :
    W7 m ρ c (Proc.devRef .tc main_v7_1) = highPass (m ((c : Thread nD τ).loc main_arg0)) := by
  refine (W7_arr m ρ c 4).trans ?_
  refine (Scaled.final4 (V6 m ρ) c).trans ?_
  funext i
  unfold Scaled.high Scaled.low highPass lowPass
  rw [col_apply, row_apply, Between.entry_arg]
  rfl

/-- THE RUN: every weakly fair execution ends with the two results at lowPass and highPass of the argument as launched,
    the argument unchanged. -/
theorem run : θ_run defs (onTc (τ := τ) (main (F := Ideal))) ⟨m, fun _ => 0, ρ⟩ fun r => ∀ c : Dev nD,
      r.2.mem ((c.tc : Thread nD τ).loc main_v7_0) = lowPass (m ((c.tc : Thread nD τ).loc main_arg0))
      ∧ r.2.mem ((c.tc : Thread nD τ).loc main_v7_1) = highPass (m ((c.tc : Thread nD τ).loc main_arg0))
      ∧ r.2.mem ((c.tc : Thread nD τ).loc main_arg0) = m ((c.tc : Thread nD τ).loc main_arg0) :=
  (θ_run defs _ _).mono (fun r h c => ⟨(h c).1.trans (low_result m ρ c), (h c).2.1.trans (high_result m ρ c), (h c).2.2⟩)
    (run_main m ρ)

end Cert.KernelIdeal.Results

end
-- ==== Proof.RefValue.lean ====
/-
  The reference's two results, index by index.

  The reference sums each row on the host, takes the scale of each sum, and multiplies the matrix by the scales of its
  row and of its column, in that order. It then forms δ − x and returns δ − (δ − x) and δ + (δ − x), with δ the identity
  matrix built from two iotas. Read one operation at a time (the generated read-at-an-index lemmas), its vector of
  scales at p is the specification's scale of row p, its identity matrix is the specification's, and the two results are
  the specification's lowPass and highPass by the two rewritings that hold for every extended real.
-/
import proofs.«113282_j73315091742991_1_alg».proof.Proof.Gen.ReferenceIdeal.Run
import proofs.«113282_j73315091742991_1_alg».proof.Proof.Gen.ReferenceIdeal.Read
import proofs.«113282_j73315091742991_1_alg».proof.Proof.FilterSpec
import Idealize.ShloMosaic.Lib.ValueIdx
import Idealize.ShloMosaic.PureOps.Ideal.Laws

noncomputable section

open Idealize.ShloMosaic Idealize.ShloMosaic.ValueIdx

namespace Cert.ReferenceIdeal.Results

open Cert.ReferenceIdeal Cert.ReferenceIdeal.Gen Cert.ReferenceIdeal.Read Cert.Filter

/-- The entry the host's row sum reads for row p and summand k. -/
theorem idx_row (p k : Fin 8192) : idx_main_v0 (ix1 p) k = ix2 p k := by
  funext a
  match a with
  | ⟨0, _⟩ => rfl
  | ⟨1, _⟩ => rfl

/-- The row broadcast reads the scales at the row, the column broadcast at the column. -/
theorem idx_rowScale (p q : Fin 8192) : idx_main_v6 (idx_main_v7 (ix2 p q)) = ix1 p := by
  funext a
  match a with
  | ⟨0, _⟩ => rfl
theorem idx_colScale (p q : Fin 8192) : idx_main_v9 (idx_main_v10 (ix2 p q)) = ix1 q := by
  funext a
  match a with
  | ⟨0, _⟩ => rfl

/-- The reference's vector of scales at p is the scale of row p's sum. -/
theorem scale_apply (x0 : (⟨S8192x8192, .f32⟩ : BufTy).Contents (Elt Ideal)) (p : Fin 8192) :
    val_main_v5 (F := Ideal) x0 (ix1 p) = rowScale x0 p := by
  rw [val_main_v5_apply, val_main_v4_apply, val_main_call0_v0_apply, val_main_v3_apply, val_main_v1_apply, val_main_v0_apply,
    val_main_call0_v1_apply, val_main_call0_cst_apply, val_main_call1_v1_apply, val_main_call1_v0_apply, val_main_cst_1_apply,
    val_main_v2_apply, val_main_cst_0_apply, val_main_cst_apply]
  unfold rowScale scale rowSum
  simp only [idx_row]
  rw [show (FloatOps.ofBits (F := Ideal) .f32 0x00000000#32 : EReal) = 0 from Ideal.ofBits_zero_f32, zero_add]

/-- The word test of the two iotas is the test on the coordinates. -/
theorem iota_word (a b : Nat) (ha : a < 8192) (hb : b < 8192) : (BitVec.ofNat 32 a + 0#32 = BitVec.ofNat 32 b) ↔ a = b := by
  constructor <;> intro h <;> bv_omega

/-- The reference's identity matrix is the specification's. -/
theorem unit_apply (p q : Fin 8192) : val_main_v17 (F := Ideal) (ix2 p q) = unit (ix2 p q) := by
  rw [val_main_v17_apply, val_main_v16_apply, val_main_v15_apply, val_main_v12_apply, val_main_v13_apply, val_main_v14_apply,
    val_main_c_apply]
  have hw := iota_word p.val q.val p.isLt q.isLt
  show ((((BitVec.ofBool (BitVec.ofNat 32 p.val + 0#32 == BitVec.ofNat 32 q.val)).toNat : ℝ)) : EReal) = if p.val = q.val then 1 else 0
  by_cases h : p.val = q.val
  · have hb' : (BitVec.ofNat 32 p.val + 0#32 == BitVec.ofNat 32 q.val) = true := beq_iff_eq.mpr (hw.mpr h)
    rw [if_pos h, hb']
    show (((1 : ℕ) : ℝ) : EReal) = 1
    simp
  · have hb' : (BitVec.ofNat 32 p.val + 0#32 == BitVec.ofNat 32 q.val) = false := beq_eq_false_iff_ne.mpr fun e => h (hw.mp e)
    rw [if_neg h, hb']
    show (((0 : ℕ) : ℝ) : EReal) = 0
    simp

/-- The reference's scaled matrix, before the two rewritings, is the specification's lowPass. -/
theorem scaled_apply (x0 : (⟨S8192x8192, .f32⟩ : BufTy).Contents (Elt Ideal)) (p q : Fin 8192) :
    val_main_v11 (F := Ideal) x0 (ix2 p q) = lowPass x0 (ix2 p q) := by
  rw [val_main_v11_apply, val_main_v8_apply, val_main_v7_apply, val_main_v6_apply, val_main_v10_apply, val_main_v9_apply,
    idx_rowScale, idx_colScale, scale_apply, scale_apply]
  rfl

/-- The first result is lowPass of the argument. -/
theorem low_eq (x0 : (⟨S8192x8192, .f32⟩ : BufTy).Contents (Elt Ideal)) : val_main_v19 (F := Ideal) x0 = lowPass x0 := by
  funext i
  obtain ⟨p, q, rfl⟩ : ∃ (p q : Fin 8192), i = ix2 p q := ⟨i 0, i 1, eq_ix2 i⟩
  rw [val_main_v19_apply, val_main_v18_apply, unit_apply, scaled_apply]
  exact sub_sub_unit _ _

/-- The second result is highPass of the argument. -/
theorem high_eq (x0 : (⟨S8192x8192, .f32⟩ : BufTy).Contents (Elt Ideal)) : val_main_v20 (F := Ideal) x0 = highPass x0 := by
  funext i
  obtain ⟨p, q, rfl⟩ : ∃ (p q : Fin 8192), i = ix2 p q := ⟨i 0, i 1, eq_ix2 i⟩
  rw [val_main_v20_apply, val_main_v18_apply, unit_apply, scaled_apply]
  exact add_sub_unit _ _

end Cert.ReferenceIdeal.Results

end
-- ==== Proof.lean ====
/-
  The normalised-adjacency filters of a square matrix A of side 8192, computed by a two-pass kernel and by a jnp reference:
  with r p the sum of row p and d p = 1 / √(r p), an infinite quotient replaced by 0,

      low (p, q)  = (d p · A (p, q)) · d q          high (p, q) = 2 · δ (p, q) − low (p, q).

  The kernel's first pass sums the rows, strip by strip; the host forms d as a column and as a row; the second pass scales
  the matrix block by block and subtracts from twice the identity, which it rebuilds from the block's position. The reference
  sums the rows on the host, forms the same d by the same operations, scales the matrix in the same order, and returns
  δ − (δ − low) and δ + (δ − low).

  At the ideal instance a float is an extended real. Both programs' values are read index by index: the kernel's two
  results are low and high of the argument (the row sums off the first region's write-backs, the scales off the host
  operations between the regions, the scaled entries off the second region's write-backs), and so are the reference's,
  since δ − (δ − x) = x and δ + (δ − x) = 2 δ − x hold for EVERY extended real x when δ is 0 or 1. So nothing here uses that
  the inputs are finite. The three frames are the programs' runs with the values dropped; the idealization rewrote
  nothing, so the fourth conjunct is trivial.
-/
import proofs.«113282_j73315091742991_1_alg».proof.Defs
import proofs.«113282_j73315091742991_1_alg».proof.Proof.Gen.Kernel
import proofs.«113282_j73315091742991_1_alg».proof.Proof.Gen.KernelIdeal
import proofs.«113282_j73315091742991_1_alg».proof.Proof.Gen.ReferenceIdeal
import proofs.«113282_j73315091742991_1_alg».proof.Proof.Gen.Pre_finite_inputs
import proofs.«113282_j73315091742991_1_alg».proof.Proof.Gen.ReferenceIdeal.Run
import proofs.«113282_j73315091742991_1_alg».proof.Proof.Gen.ReferenceIdeal.Read
import proofs.«113282_j73315091742991_1_alg».proof.Proof.KernelFrame
import proofs.«113282_j73315091742991_1_alg».proof.Proof.KernelIdealFrame
import proofs.«113282_j73315091742991_1_alg».proof.Proof.KernelIdealValue
import proofs.«113282_j73315091742991_1_alg».proof.Proof.RefValue
import Idealize.ShloMosaic.Adequacy
import Idealize.ShloMosaic.Init

noncomputable section

namespace Cert.Proof

open Idealize.ShloMosaic Idealize.SL.Sem

/-- The kernel as printed runs and leaves its argument as launched. -/
theorem frame_kernel : Cert.frame_Kernel := fun m ρ _ => Cert.Kernel.GenP.frame m ρ

/-- So does the kernel read at the ideal instance. -/
theorem frame_kernelIdeal : Cert.frame_KernelIdeal := fun m ρ _ => Cert.KernelIdeal.GenP.frame m ρ

/-- The reference's run, its results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with low and high of the argument, from memories that agree on it. -/
theorem algebraic : Cert.algebraic_KernelIdeal_ReferenceIdeal := by
  intro m ρ m' ρ' _ hagree
  refine ⟨_, _, _, (θ_run Cert.KernelIdeal.defs _ _).mono (fun r h c => ⟨(h c).1, (h c).2.1, (h c).2.2, (h c).2.2⟩)
    (Cert.KernelIdeal.Results.run m ρ), ?_⟩
  refine (θ_run Cert.ReferenceIdeal.defs _ _).mono (fun r h c => ?_) (Cert.ReferenceIdeal.Value.run (F := Ideal) m' ρ')
  refine ⟨(h c).1.trans ?_, (h c).2.1.trans ?_, (h c).2.2.1.trans (hagree c), (h c).2.2.2⟩
  · rw [Cert.ReferenceIdeal.Read.val_main_v19_eq, Cert.ReferenceIdeal.Results.low_eq, hagree c]
  · rw [Cert.ReferenceIdeal.Read.val_main_v20_eq, Cert.ReferenceIdeal.Results.high_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
